-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 4294867296#32
  let main_v24 : IVec S2x1600000 32 := broadcastInDim S2x1600000 ![] bcast_S_S2x1600000 main_c_8
  let main_v25 : IVec S2x1600000 1 := cmpi .sge main_arg1 main_v24
  let main_c_9 : IVec S_ 1 := constantI S_ 1 1#1
  let main_v26 : IVec S_ 1 := (fun x v => Host.reduce IntOp.andi x v reducesTo_S2x1600000_S_d0_1 h_S_) main_v25 main_c_9
  let main_v27 : IVec S_ 1 := andi main_v23 main_v26
  let main_c_10 : IVec S_ 32 := constantI S_ 32 100000#32
  let main_v28 : IVec S2x1600000 32 := broadcastInDim S2x1600000 ![] bcast_S_S2x1600000 main_c_10
  let main_v29 : IVec S2x1600000 1 := cmpi .slt main_arg1 main_v28
  let main_c_11 : IVec S_ 1 := constantI S_ 1 1#1
  let main_v30 : IVec S_ 1 := (fun x v => Host.reduce IntOp.andi x v reducesTo_S2x1600000_S_d0_1 h_S_) main_v29 main_c_11
  let main_v31 : IVec S_ 1 := andi main_v27 main_v30
  main_v31

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩

abbrev nBuf : Space → Nat
  | .hbm => 71
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1, .i32⟩
  | .hbm, ⟨23, _⟩ => ⟨S_, .i32⟩
  | .hbm, ⟨24, _⟩ => ⟨S1600000x1, .i32⟩
  | .hbm, ⟨25, _⟩ => ⟨S1600000x1, .i1⟩
  | .hbm, ⟨26, _⟩ => ⟨S1x1, .i32⟩
  | .hbm, ⟨27, _⟩ => ⟨S1600000x1, .i32⟩
  | .hbm, ⟨28, _⟩ => ⟨S1600000x1, .i1⟩
  | .hbm, ⟨29, _⟩ => ⟨S1600000x1, .i1⟩
  | .hbm, ⟨30, _⟩ => ⟨S_, .i1⟩
  | .hbm, ⟨31, _⟩ => ⟨S1600000, .i1⟩
  | .hbm, ⟨32, _⟩ => ⟨S1600000x128, .f32⟩
  | .hbm, ⟨33, _⟩ => ⟨S1600000x128, .i1⟩
  | .hbm, ⟨34, _⟩ => ⟨S_, .f32⟩
  | .hbm, ⟨35, _⟩ => ⟨S1600000x128, .f32⟩
  | .hbm, ⟨36, _⟩ => ⟨S1600000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1, .i32⟩
  | .hbm, ⟨46, _⟩ => ⟨S_, .i32⟩
  | .hbm, ⟨47, _⟩ => ⟨S1600000x1, .i32⟩
  | .hbm, ⟨48, _⟩ => ⟨S1600000x1, .i1⟩
  | .hbm, ⟨49, _⟩ => ⟨S1x1, .i32⟩
  | .hbm, ⟨50, _⟩ => ⟨S1600000x1, .i32⟩
  | .hbm, ⟨51, _⟩ => ⟨S1600000x1, .i1⟩
  | .hbm, ⟨52, _⟩ => ⟨S1600000x1, .i1⟩
  | .hbm, ⟨53, _⟩ => ⟨S_, .i1⟩
  | .hbm, ⟨54, _⟩ => ⟨S1600000, .i1⟩
  | .hbm, ⟨55, _⟩ => ⟨S1600000x128, .f32⟩
  | .hbm, ⟨56, _⟩ => ⟨S1600000x128, .i1⟩
  | .hbm, ⟨57, _⟩ => ⟨S_, .f32⟩
  | .hbm, ⟨58, _⟩ => ⟨S1600000x128, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S1600000, .f32⟩
  | .hbm, ⟨63, _⟩ => ⟨S1600000, .f32⟩
  | .hbm, ⟨64, _⟩ => ⟨S1600000, .f32⟩
  | .hbm, ⟨65, _⟩ => ⟨S_, .f32⟩
  | .hbm, ⟨66, _⟩ => ⟨S1600000, .f32⟩
  | .hbm, ⟨67, _⟩ => ⟨S1600000, .f32⟩
  | .hbm, ⟨68, _⟩ => ⟨S_, .f32⟩
  | .hbm, ⟨69, _⟩ => ⟨S1600000, .f32⟩
  | .hbm, ⟨70, _⟩ => ⟨S1600000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v7 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v8 : Ref sig .tc := ⟨.hbm, 59, rfl⟩
abbrev main_v9 : Ref sig .tc := ⟨.hbm, 60, rfl⟩
abbrev main_cst : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_cst_0 : Ref sig .tc := ⟨.hbm, 65, rfl⟩
abbrev main_v13 : Ref sig .tc := ⟨.hbm, 66, rfl⟩
abbrev main_v14 : Ref sig .tc := ⟨.hbm, 67, rfl⟩
abbrev main_cst_1 : Ref sig .tc := ⟨.hbm, 68, rfl⟩
abbrev main_v15 : Ref sig .tc := ⟨.hbm, 69, rfl⟩
abbrev main_v16 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  reducesTo_S1600000x128_S1600000_d1 : S1600000x128.ReducesTo [1] S1600000
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩

abbrev nBuf : Space → Nat
  | .hbm => 47
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S100000x128, .f32⟩
  | .hbm, ⟨11, _⟩ => ⟨S1x128, .f32⟩
  | .hbm, ⟨12, _⟩ => ⟨S100000x128, .f32⟩
  | .hbm, ⟨13, _⟩ => ⟨S100000x128, .f32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1x1600000, .i32⟩
  | .hbm, ⟨26, _⟩ => ⟨S1600000, .i32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x128, .f32⟩
  | .hbm, ⟨37, _⟩ => ⟨S_, .f32⟩
  | .hbm, ⟨38, _⟩ => ⟨S1600000, .f32⟩
  | .hbm, ⟨39, _⟩ => ⟨S1600000, .f32⟩
  | .hbm, ⟨40, _⟩ => ⟨S1600000, .f32⟩
  | .hbm, ⟨41, _⟩ => ⟨S_, .f32⟩
  | .hbm, ⟨42, _⟩ => ⟨S1600000, .f32⟩
  | .hbm, ⟨43, _⟩ => ⟨S1600000, .f32⟩
  | .hbm, ⟨44, _⟩ => ⟨S_, .f32⟩
  | .hbm, ⟨45, _⟩ => ⟨S1600000, .f32⟩
  | .hbm, ⟨46, _⟩ => ⟨S1600000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  reducesTo_S1600000x128_S1600000_d1 : S1600000x128.ReducesTo [1] S1600000
  h_S_ : 0 < S_.numel
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

class Facts : Prop extends Facts₀ where

variable [Facts]
-- ==== Proof.LibTakeMask.lean ====
/-
  Index normalisation as NumPy does it, on 32-bit words, and the masks jnp.take builds from it.

  An index `x` into an axis of extent `N` is accepted by NumPy when `-N ≤ x < N`; a negative one counts from the
  end, so the row read is `x + N` when `x < 0` and `x` otherwise (`wrap`). For an accepted index the wrapped
  word lies in `[0, N - 1]`: the two signed comparisons that jnp.take's bounds test makes of it both answer 1.
  Around that: a reduce by `and` of an all-ones array from an all-ones start is all ones; a `select` under an
  all-ones mask is its first branch; and a broadcast, a reshape and a slice only re-read their operand, so every
  word of the result is a word of the operand and any property of all the operand's words passes to the result's.
-/
import Idealize.ShloMosaic.Lib.Affine
import Idealize.ShloMosaic.Lib.ReduceAll
import Idealize.ShloMosaic.PureOps

namespace Idealize.ShloMosaic.TakeMask

/-- The word `x`, read signed, is an index NumPy accepts on an axis of extent `N`. -/
def Accepted (N : Nat) (x : BitVec 32) : Prop := -(N : Int) ≤ x.toInt ∧ x.toInt < (N : Int)

/-- NumPy's normalisation of an index on an axis of extent `N`: a negative index counts from the end. -/
def wrap (N : Nat) (x : BitVec 32) : BitVec 32 :=
  Scalar.select (IntOp.cmpi .slt x 0#32) (IntOp.addi x (BitVec.ofNat 32 N)) x

/-- The signed reading of a small literal is the literal. -/
theorem toInt_ofNat_of_lt {n : Nat} (hn : n < 2 ^ 31) : (BitVec.ofNat 32 n).toInt = (n : Int) := by
  rw [BitVec.toInt_eq_toNat_of_lt (by rw [BitVec.toNat_ofNat]; omega), BitVec.toNat_ofNat]
  omega

/-- An accepted index, normalised, is a row number: `0 ≤ wrap N x ≤ N - 1`, as the two signed comparisons say. -/
theorem wrap_in_range {N : Nat} (hN : 0 < N) (hN' : N < 2 ^ 30) {x : BitVec 32} (hx : Accepted N x) :
    IntOp.andi (IntOp.cmpi .sge (wrap N x) 0#32) (IntOp.cmpi .sle (wrap N x) (BitVec.ofNat 32 (N - 1))) = 1#1 := by
  obtain ⟨hlo, hhi⟩ := hx
  rw [IntOp.andi_eq_one, IntOp.cmpi_sge, IntOp.cmpi_sle]
  have h0 : (0#32 : BitVec 32).toInt = 0 := by decide
  have hN1 : (BitVec.ofNat 32 (N - 1)).toInt = ((N - 1 : Nat) : Int) := toInt_ofNat_of_lt (by omega)
  have hNN : (BitVec.ofNat 32 N).toInt = (N : Int) := toInt_ofNat_of_lt (by omega)
  rw [h0, hN1]
  unfold wrap Scalar.select
  by_cases hneg : x.toInt < 0
  · have hc : IntOp.cmpi .slt x 0#32 = 1#1 := IntOp.cmpi_slt.2 (by rw [h0]; exact hneg)
    rw [if_pos (show IntOp.cmpi .slt x 0#32 = 1 from hc)]
    have e : (IntOp.addi x (BitVec.ofNat 32 N)).toInt = x.toInt + (N : Int) := by
      show (x + BitVec.ofNat 32 N).toInt = _
      rw [BitVec.toInt_add, hNN, Int.bmod_def]
      split <;> omega
    rw [e]; omega
  · have hc : ¬IntOp.cmpi .slt x 0#32 = 1#1 := fun h => hneg (by have := IntOp.cmpi_slt.1 h; rwa [h0] at this)
    rw [if_neg (show ¬IntOp.cmpi .slt x 0#32 = 1 from hc)]
    omega

/-- A left fold by `and` of ones from one is one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A `stablehlo.reduce` by `and` of an all-ones array from an all-ones initial value is one at every result index. -/
theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x hx _

/-- A `select` whose mask is one everywhere is its first branch. -/
theorem select_of_ones {s : Shape} {α : Type} (c : IVec s 1) (a b : s.Idx → α) (hc : ∀ i, c i = 1#1) :
    select c a b = a := by
  funext i
  unfold select Scalar.select
  rw [if_pos (show c i = 1 from hc i)]

/-- Every element of a `broadcast_in_dim` is an element of its operand. -/
theorem broadcastInDim_mem {s t : Shape} {α : Type} (dims : Fin s.rank → Fin t.rank) (h : s.BroadcastsInDim t dims)
    (x : s.Idx → α) (j : t.Idx) : ∃ k, broadcastInDim t dims h x j = x k := ⟨_, rfl⟩

/-- Every element of a reshape is an element of its operand. -/
theorem shapeCast_mem {s t : Shape} {α : Type} (x : s.Idx → α) (h : s.ShapeCasts t) (j : t.Idx) :
    ∃ k, shapeCast t x h j = x k := ⟨_, rfl⟩

/-- Every element of a slice is an element of its operand. -/
theorem extractStridedSlice_mem {s t : Shape} {α : Type} (off : Fin s.rank → Nat) (x : s.Idx → α) (h : s.Slices off t)
    (j : t.Idx) : ∃ k, extractStridedSlice t off x h j = x k := ⟨_, rfl⟩

end Idealize.ShloMosaic.TakeMask
-- ==== Proof.IndexRange.lean ====
/-
  What the precondition says of the edge list.

  The printed precondition is a chain of `and`s whose last two links are `jnp.all(edge_index >= -100000)` and
  `jnp.all(edge_index < 100000)`: each a reduce by `and`, over every entry, of a signed comparison of the entry
  with a splat constant. The whole chain being 1 makes both links 1, a reduce by `and` that is 1 met only 1s, and a
  signed comparison that is 1 orders its operands as integers: every entry `x` of the edge list has
  `-100000 ≤ x < 100000`, which is what NumPy accepts as an index into an axis of extent 100000.
-/
import proofs.«413594_j83769042141419_3_alg».proof.Pre_finite_inputs
import proofs.«413594_j83769042141419_3_alg».proof.Proof.Gen.Pre_finite_inputs
import proofs.«413594_j83769042141419_3_alg».proof.Proof.LibTakeMask
import Idealize.ShloMosaic.Lib.ReduceAll
import Idealize.ShloMosaic.Lib.ValueIdx

namespace Cert.Pre_finite_inputs.IndexRange

open Idealize.ShloMosaic Idealize.ShloMosaic.TakeMask Cert.Pre_finite_inputs Cert.Pre_finite_inputs.Gen

/-- The rank-0 shape has one index. -/
instance : Subsingleton S_.Idx := ⟨fun _ _ => funext fun d => d.elim0⟩

/-- Under the precondition every entry of the edge list is an index NumPy accepts on an axis of extent 100000. -/
theorem accepted_of_pre {F : FTy → Type} [FloatOps F] (a0 : FVec F S100000x128 .f32) (e : IVec S2x1600000 32)
    (a2 : FVec F S128x128 .f32) (a3 : FVec F S128 .f32) (a4 : FVec F S128x128 .f32) (a5 : FVec F S128 .f32)
    (h : fn (F := F) a0 e a2 a3 a4 a5 = fun _ => 1#1) (i : S2x1600000.Idx) : Accepted 100000 (e i) := by
  have h0 := congrFun h ValueIdx.ix0
  dsimp only [fn, fn_part1] at h0
  obtain ⟨h1, hlt⟩ := IntOp.andi_eq_one.1 h0
  obtain ⟨-, hge⟩ := IntOp.andi_eq_one.1 h1
  have hge' := Host.reduce_andi_all _ _ _ _ _ hge i
  have hlt' := Host.reduce_andi_all _ _ _ _ _ hlt i
  have a : (4294867296#32 : BitVec 32).toInt ≤ (e i).toInt := IntOp.cmpi_sge.1 hge'
  have b : (e i).toInt < (100000#32 : BitVec 32).toInt := IntOp.cmpi_slt.1 hlt'
  rw [show (4294867296#32 : BitVec 32).toInt = -100000 from by decide] at a
  rw [show (100000#32 : BitVec 32).toInt = 100000 from by decide] at b
  show -((100000 : Nat) : Int) ≤ (e i).toInt ∧ (e i).toInt < ((100000 : Nat) : Int)
  omega

end Cert.Pre_finite_inputs.IndexRange
-- ==== Proof.EdgeScore.lean ====
/-
  The host lines that follow the projection kernel, as functions of the two projected tables and the edge list,
  and what jnp.take's bounds mask does on accepted indices.

  For an edge list `e : i32[2, 1600000]` the program reads row 0 (the source nodes) and row 1 (the targets),
  normalises each index as NumPy does (`x + 100000` when `x < 0`), and gathers the rows of the tables `zs`, `zt`
  at the normalised indices. jnp.take then replaces a gathered row by NaN wherever the normalised index is outside
  `[0, 99999]` (`takeRows`); plain indexing does not (`gatherRows`). The score of edge `k` is the logistic
  function `1 / (1 + exp (-s))` of the dot product `s = ∑ d, zs[src k, d] · zt[dst k, d]`.
  When every index of the edge list is one NumPy accepts (`-100000 ≤ x < 100000`) the bounds mask is one
  everywhere, so jnp.take's result IS the gather and the two scores are the same function (`takenScore_eq`).
-/
import proofs.«413594_j83769042141419_3_alg».proof.Proof.Gen.KernelIdeal
import proofs.«413594_j83769042141419_3_alg».proof.Proof.LibTakeMask

noncomputable section

namespace Cert.KernelIdeal.EdgeScore

open Idealize.ShloMosaic Idealize.ShloMosaic.TakeMask Cert.KernelIdeal Cert.KernelIdeal.Gen

variable {F : FTy → Type} [FloatOps F]

/-- Row 0 of the edge list: the source node of each edge. -/
def srcRow (e : IVec S2x1600000 32) : IVec S1600000 32 :=
  shapeCast _ (extractStridedSlice S1x1600000 ![0, 0] e slices_S2x1600000_S1x1600000_0_0) shapeCasts_S1x1600000_S1600000

/-- Row 1 of the edge list: the target node of each edge. -/
def dstRow (e : IVec S2x1600000 32) : IVec S1600000 32 :=
  shapeCast _ (extractStridedSlice S1x1600000 ![1, 0] e slices_S2x1600000_S1x1600000_1_0) shapeCasts_S1x1600000_S1600000

/-- The indices `r`, each normalised as NumPy does, laid out as the [1600000, 1] column of start indices a gather reads. -/
def wrapCol (r : IVec S1600000 32) : IVec S1600000x1 32 :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32))) r)

/-- jnp.take's bounds test of a column of start indices: `0 ≤ i ∧ i ≤ 99999`, per edge. -/
def inBounds (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Plain indexing `z[r]`: the rows of `z` at the normalised indices. -/
def gatherRows (z : FVec F S100000x128 .f32) (r : IVec S1600000 32) : FVec F S1600000x128 .f32 :=
  Host.gather gather_S100000x128_S1600000x1_S1600000x128_1_0_n_n_0_1_1128 z (wrapCol r)

/-- `jnp.take(z, r, axis=0)`: the same rows, a row whose normalised index fails the bounds test replaced by NaN. -/
def takeRows (z : FVec F S100000x128 .f32) (r : IVec S1600000 32) : FVec F S1600000x128 .f32 :=
  select (broadcastInDim S1600000x128 ![0] bcast_S1600000_S1600000x128_0 (inBounds (wrapCol r)))
    (gatherRows z r)
    (broadcastInDim S1600000x128 ![] bcast_S_S1600000x128 (constant S_ .f32 0x7FC00000#32))

/-- The dot product of each pair of gathered rows: the sum over the 128 features of the products. -/
def rowDots (a b : FVec F S1600000x128 .f32) : FVec F S1600000 .f32 :=
  Host.reduceAdd (mulf a b) (constant S_ .f32 0x00000000#32) reducesTo_S1600000x128_S1600000_d1 h_S_

/-- `jax.nn.sigmoid` as it lowers: `1 / (1 + exp (-x))`. -/
def logistic (x : FVec F S1600000 .f32) : FVec F S1600000 .f32 :=
  Host.divf (broadcastInDim S1600000 ![] bcast_S_S1600000 (constant S_ .f32 0x3F800000#32))
    (addf (broadcastInDim S1600000 ![] bcast_S_S1600000 (constant S_ .f32 0x3F800000#32)) (Host.exp (Host.negf x)))

/-- The edge scores with jnp.take's rows. -/
def takenScore (zs zt : FVec F S100000x128 .f32) (e : IVec S2x1600000 32) : FVec F S1600000 .f32 :=
  logistic (rowDots (takeRows zs (srcRow e)) (takeRows zt (dstRow e)))

/-- The edge scores with plainly indexed rows. -/
def gatheredScore (zs zt : FVec F S100000x128 .f32) (e : IVec S2x1600000 32) : FVec F S1600000 .f32 :=
  logistic (rowDots (gatherRows zs (srcRow e)) (gatherRows zt (dstRow e)))

/-- Every source index is one of the edge list's words, and every target index too. -/
theorem srcRow_accepted {e : IVec S2x1600000 32} (he : ∀ i, Accepted 100000 (e i)) (k : S1600000.Idx) :
    Accepted 100000 (srcRow e k) := he _
theorem dstRow_accepted {e : IVec S2x1600000 32} (he : ∀ i, Accepted 100000 (e i)) (k : S1600000.Idx) :
    Accepted 100000 (dstRow e k) := he _

/-- On accepted indices the bounds test answers one for every edge: each normalised index is a row number. -/
theorem inBounds_wrapCol {r : IVec S1600000 32} (hr : ∀ k, Accepted 100000 (r k)) (k : S1600000.Idx) :
    inBounds (wrapCol r) k = 1#1 := by
  unfold inBounds
  refine reduce_andi_one _ _ _ _ (fun _ => rfl) (fun i => ?_) k
  exact wrap_in_range (N := 100000) (by decide) (by decide) (hr _)

/-- So jnp.take returns the gathered rows themselves. -/
theorem takeRows_eq (z : FVec F S100000x128 .f32) {r : IVec S1600000 32} (hr : ∀ k, Accepted 100000 (r k)) :
    takeRows z r = gatherRows z r := by
  unfold takeRows
  refine select_of_ones _ _ _ fun j => ?_
  obtain ⟨k, hk⟩ := broadcastInDim_mem ![0] bcast_S1600000_S1600000x128_0 (inBounds (wrapCol r)) j
  rw [hk]
  exact inBounds_wrapCol hr k

/-- On an edge list of accepted indices the two scores are one function. -/
theorem takenScore_eq (zs zt : FVec F S100000x128 .f32) {e : IVec S2x1600000 32} (he : ∀ i, Accepted 100000 (e i)) :
    takenScore zs zt e = gatheredScore zs zt e := by
  unfold takenScore gatheredScore
  rw [takeRows_eq zs (srcRow_accepted he), takeRows_eq zt (dstRow_accepted he)]

end Cert.KernelIdeal.EdgeScore

end
-- ==== Proof.KernelDense.lean ====
/-
  What the projection kernel's body computes on one block, index by index.

  At a grid point the body holds a [5000, 128] block `x` of the node table, a weight matrix `W` and a bias row
  `b : [1, 128]`. It narrows `x` and `W` to bf16 (the identity on the extended reals), multiplies them on the matrix unit
  into a zero accumulator, and adds the bias row broadcast down the block's rows. At row `p`, column `q` of the block
  that is `(∑ k, x[p, k] · W[k, q]) + b[0, q]`. The source and the target projection are the same function of their
  own weights and bias.
-/
import proofs.«413594_j83769042141419_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockDense

open Idealize.ShloMosaic Idealize.ShloMosaic.ValueIdx Cert.KernelIdeal Cert.KernelIdeal.Gen

/-- The left operand's row is the output's row. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column is the contracted coordinate. -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted coordinate. -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column is the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at (p, q): the sum over the 128 features. -/
theorem blockProduct_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row broadcast down the block, at (p, q): the row's entry in column q. -/
theorem biasRow_apply (b : FVec Ideal S1x128 .f32) (p : Fin 5000) (q : Fin 128) :
    broadcastTo S5000x128 (shapeCast S1x128 b shapeCasts_S1x128_S1x128) broadcasts_S1x128_S5000x128 (ix2 p q) = b (ix2 0 q) := by
  rw [shapeCast_self]
  exact broadcastTo_apply b broadcasts_S1x128_S5000x128 (ix2 p q) (ix2 0 q) (fun a => by
    match a with
    | ⟨0, _⟩ => show (0 : Nat) = if (1 : Nat) = 1 then 0 else _; rw [if_pos rfl]
    | ⟨1, _⟩ => show q.val = if (128 : Nat) = 1 then 0 else _; rw [if_neg (by decide)]; rfl)

/-- The source projection's payload at (p, q) of its block. -/
theorem pay2_apply (x : FVec Ideal S5000x128 .f32) (W : FVec Ideal S128x128 .f32) (b : FVec Ideal S1x128 .f32) (p : Fin 5000) (q : Fin 128) :
    k0_pay2 (F := Ideal) x W b (ix2 p q) = (∑ k : Fin 128, x (ix2 p k) * W (ix2 k q)) + b (ix2 0 q) := by
  unfold k0_pay2 k0_pay1
  show (matmul dot_S5000x128_S128x128_S5000x128_1_0_0_1_n_n none (truncf .bf16 x bitsLt_bf16_f32) (truncf .bf16 W bitsLt_bf16_f32) (constant (F := Ideal) S5000x128 .f32 0x00000000#32)) (ix2 p q)
      + broadcastTo S5000x128 (shapeCast S1x128 b shapeCasts_S1x128_S1x128) broadcasts_S1x128_S5000x128 (ix2 p q) = _
  rw [blockProduct_apply, biasRow_apply]
  rfl

/-- The target projection's payload is the same function of its own weights and bias. -/
theorem pay3_apply (x : FVec Ideal S5000x128 .f32) (W : FVec Ideal S128x128 .f32) (b : FVec Ideal S1x128 .f32) (p : Fin 5000) (q : Fin 128) :
    k0_pay3 (F := Ideal) x W b (ix2 p q) = (∑ k : Fin 128, x (ix2 p k) * W (ix2 k q)) + b (ix2 0 q) :=
  pay2_apply x W b p q

end Cert.KernelIdeal.BlockDense

end
-- ==== Proof.Dense.lean ====
/-
  One dense layer over the node table, index by index.

  For `h : [100000, 128]`, `W : [128, 128]` and `b : [128]` the layer's value at row `r`, column `c` is
  `(∑ k, h[r, k] · W[k, c]) + b[c]` on the extended reals. Both programs compute exactly this for the source and the
  target projection: the kernel block by block on the matrix unit into a zero accumulator, the reference by one
  `dot_general`; no law beyond reading both sums at an index is needed, so nothing here asks the inputs to be finite.
-/
import Idealize.ShloMosaic.PureOps.Ideal
import Idealize.ShloMosaic.Lib.ValueIdx

noncomputable section

namespace Cert.Dense

open Idealize.ShloMosaic Idealize.ShloMosaic.ValueIdx

/-- The layer at row `r`, column `c`. -/
def denseEntry (h : FVec Ideal ⟨2, ![100000, 128]⟩ .f32) (W : FVec Ideal ⟨2, ![128, 128]⟩ .f32) (b : FVec Ideal ⟨1, ![128]⟩ .f32)
    (r : Fin 100000) (c : Fin 128) : EReal :=
  (∑ k : Fin 128, h (ix2 r k) * W (ix2 k c)) + b (ix1 c)

/-- The layer as one array: `h · W + b`, the bias added to every row. -/
def dense (h : FVec Ideal ⟨2, ![100000, 128]⟩ .f32) (W : FVec Ideal ⟨2, ![128, 128]⟩ .f32) (b : FVec Ideal ⟨1, ![128]⟩ .f32) :
    FVec Ideal ⟨2, ![100000, 128]⟩ .f32 :=
  fun i => denseEntry h W b (i 0) (i 1)

end Cert.Dense

end
-- ==== Proof.RegionValue.lean ====
/-
  The two arrays the projection kernel leaves behind are the dense layer of the node table.

  The grid has 20 points; point `t` stages rows `5000 t … 5000 t + 4999` of the node table (all 128 columns), the whole
  of each weight matrix and of each bias row, and writes back the same rows of the two result tables. The bias rows are
  the [128] bias vectors reshaped to [1, 128] by the host before the call. So what point `t` writes back is block `t` of
  `hiddens · W + b` read as one function of the argument arrays (`flushed_s`, `flushed_t`); the 20 blocks tile the
  100000 rows (row `r` lies in block `r / 5000`), so after the run each table IS that function (`final_s`, `final_t`).
-/
import proofs.«413594_j83769042141419_3_alg».proof.Proof.Gen.KernelIdeal.Frame
import proofs.«413594_j83769042141419_3_alg».proof.Proof.KernelDense
import proofs.«413594_j83769042141419_3_alg».proof.Proof.Dense
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen Cert.Dense Idealize.ShloMosaic.StableHlo

variable (m : (ℓ : Loc nD τ sig) → Buf (Elt Ideal) ℓ)

theorem hz : (![0, 0] : Fin 2 → Nat) = fun _ => 0 := funext fun a => by fin_cases a <;> rfl

/-- The windows' block indices at point `t`: the node table and the two results move down the rows with `t`, the
    weights and the biases stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The arrays the region finds -/

/-- The source bias as the region finds it: the host's reshape of `bs` to a [1, 128] row. -/
theorem V_bias_s (c : Dev nD) : (V m c main_v0 : S1x128.Idx → EReal)
    = shapeCast S1x128 (m ((c : Thread nD τ).loc main_arg3) : S128.Idx → EReal) shapeCasts_S128_S1x128 := by
  show StableHlo.after hostOps0 (fun b => m (c, b)) (Proc.devRef .tc main_v0) = _
  after_results
  rfl

/-- The target bias as the region finds it: the host's reshape of `bt`. -/
theorem V_bias_t (c : Dev nD) : (V m c main_v1 : S1x128.Idx → EReal)
    = shapeCast S1x128 (m ((c : Thread nD τ).loc main_arg5) : S128.Idx → EReal) shapeCasts_S128_S1x128 := by
  show StableHlo.after hostOps0 (fun b => m (c, b)) (Proc.devRef .tc main_v1) = _
  after_results
  rfl

/-- A [128] vector reshaped to a [1, 128] row, at (0, q), is the vector at q. -/
theorem row_apply (b : S128.Idx → EReal) (y : S1x128.Idx) (q : Fin 128) (hy : (y 1).val = q.val) :
    shapeCast S1x128 b shapeCasts_S128_S1x128 y = b (ix1 q) := by
  refine shapeCast_apply b _ y (ix1 q) ?_
  rw [Shape.rowMajor_val_one, Shape.rowMajor_val_two]
  have h0 : (y 0).val < 1 := (y 0).isLt
  show q.val = (y 0).val * 128 + (y 1).val
  omega

/-! ## Each staged block, read off its array -/

/-- The node table's block at point `t`: rows `5000 t …` of `hiddens`. -/
theorem hidden_block (c : Dev nD) (t : Fin cfg0.N) (y : S5000x128.Idx) (i : S100000x128.Idx)
    (h0 : (i 0).val = t.val * 5000 + (y 0).val) (h1 : (i 1).val = (y 1).val) :
    (iblk m c 0 t : S5000x128.Idx → EReal) y = (m ((c : Thread nD τ).loc main_arg0) : S100000x128.Idx → EReal) i := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The source weights' block is the whole of `Ws`. -/
theorem weight_s_block (c : Dev nD) (t : Fin cfg0.N) (y : S128x128.Idx) :
    (iblk m c 1 t : S128x128.Idx → EReal) y = (m ((c : Thread nD τ).loc main_arg2) : S128x128.Idx → EReal) y := by
  obtain ⟨-, -, e0, e1, -⟩ := idx_facts t
  unfold iblk
  rw [View.read_apply]
  show V m c main_arg2 _ = _
  rw [V_main_arg2]
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The target weights' block is the whole of `Wt`. -/
theorem weight_t_block (c : Dev nD) (t : Fin cfg0.N) (y : S128x128.Idx) :
    (iblk m c 3 t : S128x128.Idx → EReal) y = (m ((c : Thread nD τ).loc main_arg4) : S128x128.Idx → EReal) y := by
  obtain ⟨-, -, -, -, -, -, e0, e1, -⟩ := idx_facts t
  unfold iblk
  rw [View.read_apply]
  show V m c main_arg4 _ = _
  rw [V_main_arg4]
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The source bias row's block, at (0, q), is `bs` at q. -/
theorem bias_s_block (c : Dev nD) (t : Fin cfg0.N) (y : S1x128.Idx) (q : Fin 128) (hy : (y 1).val = q.val) :
    (iblk m c 2 t : S1x128.Idx → EReal) y = (m ((c : Thread nD τ).loc main_arg3) : S128.Idx → EReal) (ix1 q) := by
  obtain ⟨-, -, -, -, e0, e1, -⟩ := idx_facts t
  unfold iblk
  rw [View.read_apply]
  show (V m c main_v0 : S1x128.Idx → EReal) _ = _
  rw [V_bias_s]
  refine row_apply _ _ q ?_
  show win0_2.index t (1 : Fin 2) * 128 + 1 * (y 1).val = q.val
  rw [e1, hy]; omega

/-- The target bias row's block, at (0, q), is `bt` at q. -/
theorem bias_t_block (c : Dev nD) (t : Fin cfg0.N) (y : S1x128.Idx) (q : Fin 128) (hy : (y 1).val = q.val) :
    (iblk m c 4 t : S1x128.Idx → EReal) y = (m ((c : Thread nD τ).loc main_arg5) : S128.Idx → EReal) (ix1 q) := by
  obtain ⟨-, -, -, -, -, -, -, -, e0, e1, -⟩ := idx_facts t
  unfold iblk
  rw [View.read_apply]
  show (V m c main_v1 : S1x128.Idx → EReal) _ = _
  rw [V_bias_t]
  refine row_apply _ _ q ?_
  show win0_4.index t (1 : Fin 2) * 128 + 1 * (y 1).val = q.val
  rw [e1, hy]; omega

/-! ## A block's payload is the dense layer at the block's place in the table -/

/-- Over any block `x`, weights `Wb` and bias row `b` that read as rows of `H`, as `W` and as `bs` at the array index `i`
    the block index `y` stands for, the body's payload at `y` is the dense layer of (H, W, bs) at `i`. -/
theorem block_dense (x : FVec Ideal S5000x128 .f32) (Wb : FVec Ideal S128x128 .f32) (b : FVec Ideal S1x128 .f32)
    (H : FVec Ideal S100000x128 .f32) (W : FVec Ideal S128x128 .f32) (bs : FVec Ideal S128 .f32)
    (y : S5000x128.Idx) (i : S100000x128.Idx)
    (hx : ∀ k : Fin 128, x (ix2 (y 0) k) = H (ix2 (i 0) k))
    (hW : ∀ k : Fin 128, Wb (ix2 k (y 1)) = W (ix2 k (i 1)))
    (hb : b (ix2 0 (y 1)) = bs (ix1 (i 1))) :
    k0_pay2 (F := Ideal) x Wb b y = dense H W bs i := by
  obtain ⟨p, q, rfl⟩ : ∃ (p : Fin 5000) (q : Fin 128), y = ix2 p q := ⟨y 0, y 1, eq_ix2 y⟩
  rw [BlockDense.pay2_apply]
  have hx' : ∀ k : Fin 128, x (ix2 p k) = H (ix2 (i 0) k) := hx
  have hW' : ∀ k : Fin 128, Wb (ix2 k q) = W (ix2 k (i 1)) := hW
  have hb' : b (ix2 0 q) = bs (ix1 (i 1)) := hb
  show _ = (∑ k : Fin 128, H (ix2 (i 0) k) * W (ix2 k (i 1))) + bs (ix1 (i 1))
  rw [hb', Finset.sum_congr rfl fun k _ => by rw [hx' k, hW' k]]

/-! ## What each point writes back -/

/-- Point `t` writes back block `t` of `hiddens · Ws + bs`. -/
theorem flushed_s (c : Dev nD) (t : Fin cfg0.N) :
    (dats m 0 c).flushed 5 t = ((cfg0.win 5).blk t).view.read (Elt Ideal)
      (dense (m ((c : Thread nD τ).loc main_arg0)) (m ((c : Thread nD τ).loc main_arg2)) (m ((c : Thread nD τ).loc main_arg3))) := by
  show (cfg0.win 5).cut (grid0.coords t) ((dats m 0 c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1, -⟩ := idx_facts t
  funext j
  show k0_pay2 (F := Ideal) (iblk m c 0 t) (iblk m c 1 t) (iblk m c 2 t) j
    = dense (m ((c : Thread nD τ).loc main_arg0)) (m ((c : Thread nD τ).loc main_arg2)) (m ((c : Thread nD τ).loc main_arg3)) (((cfg0.win 5).blk t).view.emb j)
  have r0 : ((((cfg0.win 5).blk t).view.emb j) 0).val = t.val * 5000 + (j 0).val := by
    show win0_5.index t (0 : Fin 2) * 5000 + 1 * (j 0).val = _; rw [e0]; omega
  have r1 : ((((cfg0.win 5).blk t).view.emb j) 1).val = (j 1).val := by
    show win0_5.index t (1 : Fin 2) * 128 + 1 * (j 1).val = _; rw [e1]; omega
  refine block_dense _ _ _ _ _ _ j _ (fun k => ?_) (fun k => ?_) ?_
  · exact hidden_block m c t _ _ r0 rfl
  · rw [weight_s_block]
    refine congrArg _ (funext fun a => Fin.ext ?_)
    match a with
    | ⟨0, _⟩ => rfl
    | ⟨1, _⟩ => exact r1.symm
  · exact bias_s_block m c t _ _ r1.symm

/-- Point `t` writes back block `t` of `hiddens · Wt + bt`. -/
theorem flushed_t (c : Dev nD) (t : Fin cfg0.N) :
    (dats m 0 c).flushed 6 t = ((cfg0.win 6).blk t).view.read (Elt Ideal)
      (dense (m ((c : Thread nD τ).loc main_arg0)) (m ((c : Thread nD τ).loc main_arg4)) (m ((c : Thread nD τ).loc main_arg5))) := by
  show (cfg0.win 6).cut (grid0.coords t) ((dats m 0 c).after 6 t) = _
  rw [after0_6]
  unfold out0_6
  rw [View.canon_unit_zero hz]
  simp only [View.ld_unit_zero (S := S5000x128) hz, View.ld_unit_zero (S := S128x128) hz, View.ld_unit_zero (S := S1x128) hz]
  obtain ⟨-, -, -, -, -, -, -, -, -, -, -, -, e0, e1⟩ := idx_facts t
  funext j
  show k0_pay2 (F := Ideal) (iblk m c 0 t) (iblk m c 3 t) (iblk m c 4 t) j
    = dense (m ((c : Thread nD τ).loc main_arg0)) (m ((c : Thread nD τ).loc main_arg4)) (m ((c : Thread nD τ).loc main_arg5)) (((cfg0.win 6).blk t).view.emb j)
  have r0 : ((((cfg0.win 6).blk t).view.emb j) 0).val = t.val * 5000 + (j 0).val := by
    show win0_6.index t (0 : Fin 2) * 5000 + 1 * (j 0).val = _; rw [e0]; omega
  have r1 : ((((cfg0.win 6).blk t).view.emb j) 1).val = (j 1).val := by
    show win0_6.index t (1 : Fin 2) * 128 + 1 * (j 1).val = _; rw [e1]; omega
  refine block_dense _ _ _ _ _ _ j _ (fun k => ?_) (fun k => ?_) ?_
  · exact hidden_block m c t _ _ r0 rfl
  · rw [weight_t_block]
    refine congrArg _ (funext fun a => Fin.ext ?_)
    match a with
    | ⟨0, _⟩ => rfl
    | ⟨1, _⟩ => exact r1.symm
  · exact bias_t_block m c t _ _ r1.symm

/-! ## The blocks tile the tables -/

/-- An index of a result table is in point `t`'s block iff each coordinate is in the block's range on its axis. -/
theorem mem_blk_s (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v2_0).slice (win0_5.rect t)).set ↔ _
  rw [View.set_slice_whole, Rect.mem_set_unit]
  exact Iff.rfl

theorem mem_blk_t (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v2_1).slice (win0_6.rect t)).set ↔ _
  rw [View.set_slice_whole, Rect.mem_set_unit]
  exact Iff.rfl

/-- Row `r` of the source table lies in the block of point `r / 5000`. -/
theorem cover_s (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_5 _, ?_⟩
  rw [mem_blk_s]
  obtain ⟨-, -, -, -, -, -, -, -, -, -, e0, e1, -⟩ := idx_facts ⟨(i 0).val / 5000, ht⟩
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]; omega

/-- Likewise the target table. -/
theorem cover_t (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_6 _, ?_⟩
  rw [mem_blk_t]
  obtain ⟨-, -, -, -, -, -, -, -, -, -, -, -, e0, e1⟩ := idx_facts ⟨(i 0).val / 5000, ht⟩
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [e1]; omega

/-! ## The tables after the run -/

/-- The source table ends as `hiddens · Ws + bs`. -/
theorem final_s (c : Dev nD) : (dats m 0 c).arrAt 5 cfg0.N
    = dense (m ((c : Thread nD τ).loc main_arg0)) (m ((c : Thread nD τ).loc main_arg2)) (m ((c : Thread nD τ).loc main_arg3)) :=
  (dats m 0 c).arrAt_eq_of_cover 5 _ (fun t _ => flushed_s m c t) cover_s

/-- The target table ends as `hiddens · Wt + bt`. -/
theorem final_t (c : Dev nD) : (dats m 0 c).arrAt 6 cfg0.N
    = dense (m ((c : Thread nD τ).loc main_arg0)) (m ((c : Thread nD τ).loc main_arg4)) (m ((c : Thread nD τ).loc main_arg5)) :=
  (dats m 0 c).arrAt_eq_of_cover 6 _ (fun t _ => flushed_t m c t) cover_t

end Cert.KernelIdeal.RegionValue

end
-- ==== Proof.KernelTail.lean ====
/-
  The host lines after the projection kernel, read back: the program's result is the edge score, with jnp.take's
  rows, of the two tables the kernel left and of the edge list as launched.

  After the region the program slices the two rows of the edge list, calls jnp.take once per table, multiplies the
  taken rows, sums over the features and applies the logistic function. None of these lines writes a table or the
  edge list, so each line's result is its operation applied to the results before it, and the last one is
  `takenScore` of the tables after the run and of the edge list.
-/
import proofs.«413594_j83769042141419_3_alg».proof.Proof.Gen.KernelIdeal.Frame
import proofs.«413594_j83769042141419_3_alg».proof.Proof.EdgeScore
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.TailValue

open Cert.KernelIdeal Cert.KernelIdeal.Gen Idealize.ShloMosaic.StableHlo

variable {F : FTy → Type} [FloatOps F]
variable (m : (ℓ : Loc nD τ sig) → Buf (Elt F) ℓ)

/-- A value moved to a typed reference's buffer type and back is the value. -/
theorem ofBuf_toBuf {Val : EltTy → Type} {sig : RefSig} {T : BufTy} (x : StableHlo.TRef sig T) (v : T.Contents Val) :
    x.ofBuf (x.toBuf v) = v := by
  obtain ⟨r, rfl, h2, h3⟩ := x
  rfl

/-! At a literal buffer whose type is the carried one the two transports are the identity. -/
theorem ofBuf_v4 (h : main_v4.ty = (⟨S1600000, .i32⟩ : BufTy)) (h2 h3) (v : main_v4.ty.Contents (Elt F)) :
    (TRef.of main_v4 h h2 h3 : TRef sig ⟨S1600000, .i32⟩).ofBuf v = v := rfl
theorem ofBuf_v6 (h : main_v6.ty = (⟨S1600000, .i32⟩ : BufTy)) (h2 h3) (v : main_v6.ty.Contents (Elt F)) :
    (TRef.of main_v6 h h2 h3 : TRef sig ⟨S1600000, .i32⟩).ofBuf v = v := rfl
theorem ofBuf_v2_0 (h : main_v2_0.ty = (⟨S100000x128, .f32⟩ : BufTy)) (h2 h3) (v : main_v2_0.ty.Contents (Elt F)) :
    (TRef.of main_v2_0 h h2 h3 : TRef sig ⟨S100000x128, .f32⟩).ofBuf v = v := rfl
theorem ofBuf_v2_1 (h : main_v2_1.ty = (⟨S100000x128, .f32⟩ : BufTy)) (h2 h3) (v : main_v2_1.ty.Contents (Elt F)) :
    (TRef.of main_v2_1 h h2 h3 : TRef sig ⟨S100000x128, .f32⟩).ofBuf v = v := rfl
theorem toBuf_v7 (h : main_v7.ty = (⟨S1600000x128, .f32⟩ : BufTy)) (h2 h3) (v : (⟨S1600000x128, .f32⟩ : BufTy).Contents (Elt F)) :
    (TRef.of main_v7 h h2 h3 : TRef sig ⟨S1600000x128, .f32⟩).toBuf v = v := rfl
theorem toBuf_v8 (h : main_v8.ty = (⟨S1600000x128, .f32⟩ : BufTy)) (h2 h3) (v : (⟨S1600000x128, .f32⟩ : BufTy).Contents (Elt F)) :
    (TRef.of main_v8 h h2 h3 : TRef sig ⟨S1600000x128, .f32⟩).toBuf v = v := rfl

set_option maxHeartbeats 2000000 in
/-- The result buffer after the lines that follow the region. -/
theorem tail_eq (c : Dev nD) :
    Pipeline.afterTail₀ cfgs (dats m) 0 (V0 m) [hostOps1, hostOps1_1, hostOps1_2, hostOps1_3] c main_v16
      = EdgeScore.takenScore ((dats m 0 c).arrAt 5 cfg0.N) ((dats m 0 c).arrAt 6 cfg0.N) (m ((c : Thread nD τ).loc main_arg1)) := by
  have e5 : Pipeline.withArrays (cfgs 0).spec c (V0 m c) (fun w => (dats m 0 c).arrAt w (cfgs 0).N) (Proc.devRef .tc main_v2_0)
      = (dats m 0 c).arrAt 5 cfg0.N := Pipeline.withArrays_arr spec0 launch0.win.arr_inj c _ _ 5
  have e6 : Pipeline.withArrays (cfgs 0).spec c (V0 m c) (fun w => (dats m 0 c).arrAt w (cfgs 0).N) (Proc.devRef .tc main_v2_1)
      = (dats m 0 c).arrAt 6 cfg0.N := Pipeline.withArrays_arr spec0 launch0.win.arr_inj c _ _ 6
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  unfold Pipeline.afterTail₀
  simp only [hostOps1, hostOps1_1, hostOps1_2, hostOps1_3, List.flatten_cons, List.flatten_nil, List.append_nil, List.cons_append, List.nil_append]
  after_results_simp
  rw [e5, e6, e1]
  simp only [ofBuf_toBuf, ofBuf_v4, ofBuf_v6, ofBuf_v2_0, ofBuf_v2_1, toBuf_v7, toBuf_v8]
  rfl

end Cert.KernelIdeal.TailValue

end
-- ==== Proof.KernelRun.lean ====
/-
  The kernel program's run, read: its result buffer ends at the edge score, with jnp.take's rows, of the dense layers
  `hiddens · Ws + bs` and `hiddens · Wt + bt` and of the edge list, and its six arguments end as launched.

  The frame run leaves each table the kernel writes at the array its blocks add up to (the dense layer), and every
  other buffer at what the lines after the region compute from those tables and the arguments; the result buffer is
  the last of those lines'.
-/
import proofs.«413594_j83769042141419_3_alg».proof.Proof.Gen.KernelIdeal.Frame
import proofs.«413594_j83769042141419_3_alg».proof.Proof.RegionValue
import proofs.«413594_j83769042141419_3_alg».proof.Proof.KernelTail

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.Dense

/-- Every weakly fair execution of the kernel program ends with the result buffer at the taken score of the two
    dense layers, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16)
        = EdgeScore.takenScore (F := Ideal)
            (dense (m ((c.tc : Thread nD τ).loc main_arg0)) (m ((c.tc : Thread nD τ).loc main_arg2)) (m ((c.tc : Thread nD τ).loc main_arg3)))
            (dense (m ((c.tc : Thread nD τ).loc main_arg0)) (m ((c.tc : Thread nD τ).loc main_arg4)) (m ((c.tc : Thread nD τ).loc main_arg5)))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      ((h c).2 main_v16 (Pipeline.mem_restRefs_of main_v16 (by decide) (by decide))).trans
        ((TailValue.tail_eq m c).trans (by rw [RegionValue.final_s m c, RegionValue.final_t m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.RunValue

end
-- ==== Proof.RefDense.lean ====
/-
  The reference's two projected tables are the dense layer.

  The reference computes `hiddens @ W + b` as a `dot_general` contracting the feature axis, the bias broadcast first to
  a [1, 128] row and then down the 100000 rows, and an elementwise sum. Read at an index (r, c) the product is
  `∑ k, hiddens[r, k] · W[k, c]` and the broadcast bias is `b[c]`.
-/
import proofs.«413594_j83769042141419_3_alg».proof.Proof.Gen.ReferenceIdeal.Read
import proofs.«413594_j83769042141419_3_alg».proof.Proof.Dense

noncomputable section

namespace Cert.ReferenceIdeal.RefDense

open Idealize.ShloMosaic Idealize.ShloMosaic.ValueIdx Cert.ReferenceIdeal Cert.ReferenceIdeal.Gen Cert.ReferenceIdeal.Read Cert.Dense

/-- The source projection `hiddens @ Ws + bs` is the dense layer of (hiddens, Ws, bs). -/
theorem zs_eq (x0 : FVec Ideal S100000x128 .f32) (x2 : FVec Ideal S128x128 .f32) (x3 : FVec Ideal S128 .f32) :
    val_main_v3 (F := Ideal) x0 x2 x3 = dense x0 x2 x3 := by
  funext i
  rw [val_main_v3_apply, val_main_v0_apply, val_main_v2_apply, val_main_v1_apply]
  show (∑ k : Fin 128, x0 (lidx_main_v0 i k) * x2 (ridx_main_v0 i k)) + x3 (idx_main_v1 (idx_main_v2 i))
    = (∑ k : Fin 128, x0 (ix2 (i 0) k) * x2 (ix2 k (i 1))) + x3 (ix1 (i 1))
  have el : ∀ k : Fin 128, lidx_main_v0 i k = ix2 (i 0) k := fun k => funext fun a => by
    match a with
    | ⟨0, _⟩ => rfl
    | ⟨1, _⟩ => rfl
  have er : ∀ k : Fin 128, ridx_main_v0 i k = ix2 k (i 1) := fun k => funext fun a => by
    match a with
    | ⟨0, _⟩ => rfl
    | ⟨1, _⟩ => rfl
  have eb : idx_main_v1 (idx_main_v2 i) = ix1 (i 1) := funext fun a => by
    match a with
    | ⟨0, _⟩ => rfl
  simp only [el, er, eb]
  rfl

/-- The target projection `hiddens @ Wt + bt` is the dense layer of (hiddens, Wt, bt). -/
theorem zt_eq (x0 : FVec Ideal S100000x128 .f32) (x4 : FVec Ideal S128x128 .f32) (x5 : FVec Ideal S128 .f32) :
    val_main_v7 (F := Ideal) x0 x4 x5 = dense x0 x4 x5 := by
  funext i
  rw [val_main_v7_apply, val_main_v4_apply, val_main_v6_apply, val_main_v5_apply]
  show (∑ k : Fin 128, x0 (lidx_main_v4 i k) * x4 (ridx_main_v4 i k)) + x5 (idx_main_v5 (idx_main_v6 i))
    = (∑ k : Fin 128, x0 (ix2 (i 0) k) * x4 (ix2 k (i 1))) + x5 (ix1 (i 1))
  have el : ∀ k : Fin 128, lidx_main_v4 i k = ix2 (i 0) k := fun k => funext fun a => by
    match a with
    | ⟨0, _⟩ => rfl
    | ⟨1, _⟩ => rfl
  have er : ∀ k : Fin 128, ridx_main_v4 i k = ix2 k (i 1) := fun k => funext fun a => by
    match a with
    | ⟨0, _⟩ => rfl
    | ⟨1, _⟩ => rfl
  have eb : idx_main_v5 (idx_main_v6 i) = ix1 (i 1) := funext fun a => by
    match a with
    | ⟨0, _⟩ => rfl
  simp only [el, er, eb]
  rfl

end Cert.ReferenceIdeal.RefDense

end
-- ==== Proof.RefScore.lean ====
/-
  The reference's result is the edge score, with plainly indexed rows, of the two dense layers.

  The reference indexes its two projected tables with the rows of the edge list (NumPy's normalisation, then a
  gather), multiplies, sums over the features and applies the logistic function: line for line the function
  `gatheredScore` of its tables `hiddens · Ws + bs` and `hiddens · Wt + bt`, which are the dense layer.
-/
import proofs.«413594_j83769042141419_3_alg».proof.Proof.Gen.ReferenceIdeal.Read
import proofs.«413594_j83769042141419_3_alg».proof.Proof.RefDense
import proofs.«413594_j83769042141419_3_alg».proof.Proof.EdgeScore

set_option maxRecDepth 16384

noncomputable section

namespace Cert.ReferenceIdeal.RefScore

open Idealize.ShloMosaic Cert.ReferenceIdeal Cert.ReferenceIdeal.Gen Cert.ReferenceIdeal.Read Cert.Dense

/-- The reference's last stage, as a function of its six arguments. -/
theorem result_eq (x0 : FVec Ideal S100000x128 .f32) (x1 : IVec S2x1600000 32) (x2 : FVec Ideal S128x128 .f32)
    (x3 : FVec Ideal S128 .f32) (x4 : FVec Ideal S128x128 .f32) (x5 : FVec Ideal S128 .f32) :
    val_main_v33 (F := Ideal) x0 x1 x2 x3 x4 x5
      = Cert.KernelIdeal.EdgeScore.gatheredScore (F := Ideal) (dense x0 x2 x3) (dense x0 x4 x5) x1 := by
  rw [← RefDense.zs_eq, ← RefDense.zt_eq]
  rfl

end Cert.ReferenceIdeal.RefScore

end
-- ==== Proof.lean ====
/-
  The certificate of the edge-mask decoder: the Pallas kernel program against its jnp reference, over the extended reals.

  Both programs project the node table twice, `zs = hiddens · Ws + bs` and `zt = hiddens · Wt + bt`, and score each edge
  `(s, d)` of the edge list by the logistic function of the dot product of row `s` of `zs` with row `d` of `zt`.
  The kernel computes the two projections block by block on the matrix unit (bf16 operands, which are the same
  extended reals, into a zero accumulator); the reference by one `dot_general` each: index by index both are the sum
  over the 128 features plus the bias, with no law of arithmetic in between. They differ in how a row is fetched: the
  reference indexes plainly, the kernel program calls jnp.take, which returns NaN rows where the normalised index is
  out of range. The precondition keeps every index where NumPy accepts it, `-100000 ≤ i < 100000`; there the bounds
  mask is one everywhere, jnp.take returns the gathered rows, and the two results are one function of the arguments.
  The three frames are the generated ones (the reference's is its generated run with the result dropped); the ideal
  pass rewrote nothing, so `preserves` holds trivially.
-/
import proofs.«413594_j83769042141419_3_alg».proof.Defs
import proofs.«413594_j83769042141419_3_alg».proof.Proof.Gen.Kernel
import proofs.«413594_j83769042141419_3_alg».proof.Proof.Gen.Kernel.Skeleton
import proofs.«413594_j83769042141419_3_alg».proof.Proof.Gen.Kernel.Launch
import proofs.«413594_j83769042141419_3_alg».proof.Proof.Gen.Kernel.Points
import proofs.«413594_j83769042141419_3_alg».proof.Proof.Gen.Kernel.Frame
import proofs.«413594_j83769042141419_3_alg».proof.Proof.Gen.KernelIdeal
import proofs.«413594_j83769042141419_3_alg».proof.Proof.Gen.KernelIdeal.Skeleton
import proofs.«413594_j83769042141419_3_alg».proof.Proof.Gen.KernelIdeal.Launch
import proofs.«413594_j83769042141419_3_alg».proof.Proof.Gen.KernelIdeal.Points
import proofs.«413594_j83769042141419_3_alg».proof.Proof.Gen.KernelIdeal.Frame
import proofs.«413594_j83769042141419_3_alg».proof.Proof.Gen.ReferenceIdeal
import proofs.«413594_j83769042141419_3_alg».proof.Proof.Gen.ReferenceIdeal.Run
import proofs.«413594_j83769042141419_3_alg».proof.Proof.Gen.ReferenceIdeal.Read
import proofs.«413594_j83769042141419_3_alg».proof.Proof.Gen.Pre_finite_inputs
import proofs.«413594_j83769042141419_3_alg».proof.Proof.IndexRange
import proofs.«413594_j83769042141419_3_alg».proof.Proof.EdgeScore
import proofs.«413594_j83769042141419_3_alg».proof.Proof.KernelRun
import proofs.«413594_j83769042141419_3_alg».proof.Proof.RefScore
import Idealize.ShloMosaic.Adequacy
import Idealize.ShloMosaic.Init

noncomputable section

namespace Cert.Proof

open Idealize.ShloMosaic Idealize.SL.Sem

/-- The kernel program as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, both programs end with the edge scores of the two dense layers at the
    plainly indexed rows: the kernel program's jnp.take is the plain gather on the accepted indices the precondition
    leaves, and the reference's two tables are the dense layers the kernel's blocks add up to. -/
theorem algebraic : Cert.algebraic_KernelIdeal_ReferenceIdeal := by
  intro m ρ m' ρ' hpre hagree
  have hacc : ∀ (c : Dev Cert.KernelIdeal.nD) (i : Cert.KernelIdeal.S2x1600000.Idx),
      TakeMask.Accepted 100000 (m ((c.tc : Thread Cert.KernelIdeal.nD Cert.KernelIdeal.τ).loc Cert.KernelIdeal.main_arg1) i) :=
    fun c i => Cert.Pre_finite_inputs.IndexRange.accepted_of_pre _ _ _ _ _ _ (hpre c) i
  refine ⟨fun c => Cert.KernelIdeal.EdgeScore.gatheredScore (F := Ideal)
      (Cert.Dense.dense (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (Cert.Dense.dense (m ((c.tc : Thread Cert.KernelIdeal.nD Cert.KernelIdeal.τ).loc Cert.KernelIdeal.main_arg0))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.EdgeScore.takenScore_eq _ _ (hacc c)), (h c).2⟩)
      (Cert.KernelIdeal.RunValue.run m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5⟩ := hagree c
    rw [a0, a1, a2, a3, a4, a5]
    exact (Cert.ReferenceIdeal.Read.val_main_v33_eq _ _ _ _ _ _).trans (Cert.ReferenceIdeal.RefScore.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
